-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : FVec F S8192 .f32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

abbrev nBuf : Space → Nat
  | .hbm => 11
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S8192, .i32⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  h_S_ : 0 < S_.numel
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S8192, .i32⟩
  | .hbm, ⟨3, _⟩ => ⟨S128x8192, .f32⟩
  | .hbm, ⟨4, _⟩ => ⟨S8192x8192, .f32⟩
  | .hbm, ⟨5, _⟩ => ⟨S8192x1, .i32⟩
  | .hbm, ⟨6, _⟩ => ⟨S1x8192, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .i1⟩
  | .hbm, ⟨13, _⟩ => ⟨S8192x8192, .i1⟩
  | .hbm, ⟨14, _⟩ => ⟨S8192x8192, .i1⟩
  | .hbm, ⟨15, _⟩ => ⟨S8192x1, .f32⟩
  | .hbm, ⟨16, _⟩ => ⟨S8192x8192, .f32⟩
  | .hbm, ⟨17, _⟩ => ⟨S8192x8192, .i1⟩
  | .hbm, ⟨18, _⟩ => ⟨S8192x8192, .i1⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsSide.Body.lean ====
import proofs.«173385_j80229989089698_1_alg».proof.Proof.Gen.Kernel.Launch
import proofs.«173385_j80229989089698_1_alg».proof.Proof.Gen.Kernel.Skeleton
import proofs.«173385_j80229989089698_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at one grid point, as a triple over whole staging memrefs: it leaves the five input buffers as
    found and stores into the scratch, and then into the output buffer, the running row sums — the previous
    contents of the scratch, or zeros at the first column tile of a row tile, plus this tile's row sums. -/

/-- The body's one branch: the column coordinate of the grid point is 0. -/
abbrev firstCol (i : grid0.Coords) : Prop := (Scalar.cmpi .ne (Scalar.extui (Scalar.cmpi .eq (BitVec.ofNat 32 (i 1).val) 0#32)) 0#32) = 1#1

/-- It holds exactly at the points that start a row tile. -/
theorem firstCol_iff : ∀ t : Fin cfg0.N, firstCol (grid0.coords t) ↔ t.val % 8 = 0 :=
  (by decide +kernel : ∀ t : Fin grid0.N, firstCol (grid0.coords t) ↔ t.val % 8 = 0)

/-- Reading a buffer back after a list of stores whose LAST one went through the whole-shape rectangle at zero offsets
    gives that store's payload, whatever was there before and whatever the earlier stores were: the last store covers
    every index. For any shape. -/
theorem read_after_whole_store {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

theorem hz00 : (![0, 0] : Fin 2 → Nat) = fun _ => 0 := by funext a; fin_cases a <;> rfl

/-- At a point that starts a row tile the scratch is zeroed first: whatever it and the output buffer held, both end at
    the tile's row sums over zeros. -/
theorem run_first (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc : firstCol i)
    (x2 : Vec F S1024x128 .f32) (x3 : Vec F S1024x128 .f32) (x4 : Vec F S1024x1 .i32) (x5 : Vec F S1x1024 .i32) (x6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k0_pay2 x2 x3 x4 x5 x6 (k0_pay1 (F := F)))
            ∗ owns (c : Thread nD τ) arg8 fullShare (k0_pay2 x2 x3 x4 x5 x6 (k0_pay1 (F := F)))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5; obtain rfl := harg6.eq_unread hf6
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; (· iexact H7)
    ipureintro
    refine (read_after_whole_store _ _ hz00 _ _ _).trans ?_
    sl_unfold_words
    simp only [View.readCov_cons_toLoadRect, View.readCov_unit_zero (S := S1024x1) _ hz00, View.readAt_eq_ld, Memref.IsWhole.read_unread, View.ld_unit_zero (S := S1024x128) hz00, View.ld_unit_zero (S := S1024x1) hz00, View.ld_unit_zero (S := S1x1024) hz00]
  · iexists _; isplitr; swap; (· iexact H8)
    ipureintro
    sl_unfold_words
    refine (read_after_whole_store _ _ hz00 _ _ _).trans ?_
    simp only [View.readCov_cons_toLoadRect, View.readCov_unit_zero (S := S1024x1) _ hz00, View.readAt_eq_ld, Memref.IsWhole.read_unread, View.ld_unit_zero (S := S1024x128) hz00, View.ld_unit_zero (S := S1024x1) hz00, View.ld_unit_zero (S := S1x1024) hz00]

/-- At any other point the scratch holds the running sums `p` of the row tile so far: it and the output buffer end at
    `p` plus this tile's row sums. -/
theorem run_next (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc : ¬firstCol i)
    (x2 : Vec F S1024x128 .f32) (x3 : Vec F S1024x128 .f32) (x4 : Vec F S1024x1 .i32) (x5 : Vec F S1x1024 .i32) (x6 : Vec F S1024x1 .f32)
    (p : Vec F S1024x1 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ owns (c : Thread nD τ) arg8 fullShare p
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k0_pay2 x2 x3 x4 x5 x6 p)
            ∗ owns (c : Thread nD τ) arg8 fullShare (k0_pay2 x2 x3 x4 x5 x6 p)) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg8.eq_unread hf8
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; (· iexact H7)
    ipureintro
    refine (read_after_whole_store _ _ hz00 _ _ _).trans ?_
    sl_unfold_words
    simp only [View.readCov_cons_toLoadRect, View.readCov_unit_zero (S := S1024x1) _ hz00, View.readAt_eq_ld, Memref.IsWhole.read_unread, View.ld_unit_zero (S := S1024x128) hz00, View.ld_unit_zero (S := S1024x1) hz00, View.ld_unit_zero (S := S1x1024) hz00]
  · iexists _; isplitr; swap; (· iexact H8)
    ipureintro
    sl_unfold_words
    refine (read_after_whole_store _ _ hz00 _ _ _).trans ?_
    simp only [View.readCov_cons_toLoadRect, View.readCov_unit_zero (S := S1024x1) _ hz00, View.readAt_eq_ld, Memref.IsWhole.read_unread, View.ld_unit_zero (S := S1024x128) hz00, View.ld_unit_zero (S := S1024x1) hz00, View.ld_unit_zero (S := S1x1024) hz00]

end Cert.Kernel.Hand

end
-- ==== Proof.BitsSide.Data.lean ====
import proofs.«173385_j80229989089698_1_alg».proof.Proof.BitsSide.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The pipeline's proof data: what the region finds in the arrays, each window's block at a grid point, and the
    running row sums the scratch carries along a row tile — reset at the tile's first column tile, then one column
    tile's row sums added per point — which is also what the output window's buffer holds after each point. -/

variable (m : (ℓ : Loc nD τ sig) → Buf (Elt F) ℓ)

/-- Core `c`'s buffers at launch, as a valuation; -/
abbrev V₀ (c : Dev nD) : Valuation τ sig (Elt F) := fun b => m (c, b)
/-- when the region is entered, after the three reshapes; -/
abbrev Vin (c : Dev nD) : Valuation τ sig (Elt F) := StableHlo.after hostOps0 (V₀ m c)
/-- and that read at a TensorCore reference. -/
abbrev V (c : Dev nD) (b : Ref sig .tc) : Buf (Elt F) ((c : Thread nD τ).loc b) := Vin m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The five input blocks at a point, by what they are: the anchor rows' embeddings, the key rows' embeddings, the anchor
    rows' classes, the key rows' classes, the anchor rows' margins. -/
abbrev rowsAt (c : Dev nD) (t : Fin cfg0.N) : Vec F S1024x128 .f32 := iblk m c 0 t
abbrev colsAt (c : Dev nD) (t : Fin cfg0.N) : Vec F S1024x128 .f32 := iblk m c 1 t
abbrev rowClsAt (c : Dev nD) (t : Fin cfg0.N) : Vec F S1024x1 .i32 := iblk m c 2 t
abbrev colClsAt (c : Dev nD) (t : Fin cfg0.N) : Vec F S1x1024 .i32 := iblk m c 3 t
abbrev marginAt (c : Dev nD) (t : Fin cfg0.N) : Vec F S1024x1 .f32 := iblk m c 4 t

/-- One point's step: the running sums `p` plus this column tile's row sums. -/
def step (c : Dev nD) (t : Fin cfg0.N) (p : Vec F S1024x1 .f32) : Vec F S1024x1 .f32 :=
  k0_pay2 (rowsAt m c t) (colsAt m c t) (rowClsAt m c t) (colClsAt m c t) (marginAt m c t) p

/-- The running row sums after point `n`: a row tile's first column tile starts from zeros. -/
def accAt (c : Dev nD) : (n : ℕ) → n < cfg0.N → Vec F S1024x1 .f32
  | 0, h => step m c ⟨0, h⟩ (k0_pay1 (F := F))
  | n + 1, h => step m c ⟨n + 1, h⟩ (if (n + 1) % 8 = 0 then k0_pay1 (F := F) else accAt c n (Nat.lt_of_succ_lt h))

theorem accAt_first (c : Dev nD) (t : Fin cfg0.N) (h0 : t.val % 8 = 0) :
    accAt m c t.val t.isLt = step m c t (k0_pay1 (F := F)) := by
  obtain ⟨n, hn⟩ := t
  cases n with
  | zero => rfl
  | succ n => exact congrArg (step m c ⟨n + 1, hn⟩) (if_pos h0)

theorem accAt_next (c : Dev nD) (t : Fin cfg0.N) (h0 : ¬t.val % 8 = 0) :
    accAt m c t.val t.isLt = step m c t (accAt m c (t.val - 1) (Nat.lt_of_le_of_lt (Nat.sub_le _ _) t.isLt)) := by
  obtain ⟨n, hn⟩ := t
  cases n with
  | zero => exact absurd (Nat.zero_mod _) h0
  | succ n => exact congrArg (step m c ⟨n + 1, hn⟩) (if_neg h0)

/-- The scratch operand: a whole scoped buffer of the kernel's own. -/
abbrev scM : Memref sig .tc .vmem S1024x1 .f32 := Memref.whole cc0_scratch0

/-- The invariant before point `n`: the scratch at the running sums the point before left — at anything before a row
    tile's first column tile, whose body zeroes it. -/
def PhiAcc (c : Dev nD) (n : ℕ) : sProp 𝕄 :=
  iprop(∃ d : Vec F S1024x1 .f32, ⌜¬n % 8 = 0 → ∀ h : n - 1 < cfg0.N, d = accAt m c (n - 1) h⌝ ∗ owns (c : Thread nD τ) scM fullShare d)

/-- The proof data on core `c`: the arrays as the region finds them; after the body each input's buffer still at its
    block and the output's at the running sums; the scratch's invariant; nothing owed. The embeddings' array is handed to
    the kernel twice — as anchor rows and as key rows — and each of the two windows holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ t := PhiAcc m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = accAt m c t.val t.isLt := by dsimp only [dats]

/-- An input window's current buffer holds its block at every point, fetched there or not: unfetched, its block index
    has not moved since the point before, whose body left the block in place. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

end Cert.Kernel.Hand

end
-- ==== Proof.BitsSide.Oblig.lean ====
import proofs.«173385_j80229989089698_1_alg».proof.Proof.BitsSide.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body obligation: at every grid point, from the scratch's invariant and every window's current buffer at what it
    then holds, the body runs to the invariant of the next point and every buffer at what the proof data says it leaves. -/

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem Phi_castSucc (c : Dev nD) (t : Fin cfg0.N) : (dats m 0 c).Φ t.castSucc = PhiAcc m c t.val := by
  dsimp only [dats]; simp only [Fin.coe_castSucc]

theorem Phi_succ (c : Dev nD) (t : Fin cfg0.N) : (dats m 0 c).Φ t.succ = PhiAcc m c (t.val + 1) := by
  dsimp only [dats]; simp only [Fin.val_succ]

set_option maxHeartbeats 1600000 in
/-- The body at any point. The inputs' buffers hold their blocks. At a point that starts a row tile the scratch may hold
    anything and ends, with the output buffer, at the tile's row sums over zeros; at any other point it holds the sums the
    point before left and both end at those plus this tile's row sums. Either way that is `accAt` at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4, after_5]
  rw [show (dats m 0 c).owesAt () t.succ = (dats m 0 c).owesAt () t.castSucc from rfl, Phi_castSucc, Phi_succ]
  unfold PhiAcc
  by_cases h0 : t.val % 8 = 0
  · rw [accAt_first m c t h0]; unfold step
    iintro ⟨⟨%p, -, HS⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((firstCol_iff t).mpr h0) (rowsAt m c t) (colsAt m c t) (rowClsAt m c t) (colClsAt m c t) (marginAt m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS]
    · iexists _; isplitr; swap; (· iexact HS)
      ipureintro; intro _ _
      exact (accAt_first m c t h0).symm
    isplitl [Ho]; · iexact Ho
    isplitl [H0]; · iexact H0
    isplitl [H1]; · iexact H1
    isplitl [H2]; · iexact H2
    isplitl [H3]; · iexact H3
    isplitl [H4]; · iexact H4
    iexact H5
  · rw [accAt_next m c t h0]; unfold step
    iintro ⟨⟨%p, %hp, HS⟩, Ho, ⟨%d0, H0⟩, ⟨%d1, H1⟩, ⟨%d2, H2⟩, ⟨%d3, H3⟩, ⟨%d4, H4⟩, ⟨%d5, H5⟩⟩
    obtain rfl := hp h0 (Nat.lt_of_le_of_lt (Nat.sub_le _ _) t.isLt)
    iapply (run_next c (grid0.coords t) _ _ _ _ _ _ _ _ _ _ _ _ _ _ (fun h => h0 ((firstCol_iff t).mp h)) (rowsAt m c t) (colsAt m c t) (rowClsAt m c t) (colClsAt m c t) (marginAt m c t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]
    · iexists _; isplitr; swap; (· iexact HS)
      ipureintro; intro _ _
      exact (accAt_next m c t h0).symm
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsSide.Launch.lean ====
import proofs.«173385_j80229989089698_1_alg».proof.Proof.BitsSide.Oblig
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The launch: @main is three reshapes, the kernel region, and four host operations on its result. The region is
    entered holding every unscoped buffer whole; the embeddings' array, which two windows read, is split into halves for
    the run and put together again at its end; the host operations after the region then read the output array. -/

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)
/-- The unscoped TensorCore buffers. -/
abbrev ucR : Finset (DevRef τ sig) := Pipeline.ucRefs τ sig

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h
theorem hostOps0_in : ∀ op ∈ (hostOps0 : List (HloOp τ sig (Elt F))), op.bufs ⊆ ucR :=
  fun op h => Pipeline.sub_ucRefs op ((List.forall_iff_forall_mem.mp hostOps0_sub) op h)
theorem hostOps1_in : ∀ op ∈ (hostOps1 : List (HloOp τ sig (Elt F))), op.bufs ⊆ ucR :=
  fun op h => Pipeline.sub_ucRefs op ((List.forall_iff_forall_mem.mp hostOps1_sub) op h)

/-- The output array after the run. -/
abbrev finalOut (c : Dev nD) : Buf (Elt F) ((c : Thread nD τ).loc main_v3) := (dats m 0 c).arrAt 5 cfg0.N

/-- The buffers when the region is left: the output array at its final contents, every other as the region found it. -/
def Vout (c : Dev nD) : Valuation τ sig (Elt F) := fun b =>
  if h : Proc.devRef .tc main_v3 = b then cast (congrArg (fun b' : DevRef τ sig => b'.ty.Contents (Elt F)) h) (finalOut m c)
  else Vin m c b

theorem Vout_out (c : Dev nD) : Vout m c (Proc.devRef .tc main_v3) = finalOut m c := by
  unfold Vout; rw [dif_pos rfl]; rfl

theorem Vout_of_ne (c : Dev nD) (b : Ref sig .tc) (h : b ≠ main_v3) : Vout m c (Proc.devRef .tc b) = V m c b := by
  unfold Vout; rw [dif_neg (fun e => h (Proc.devRef_injective (τ := τ) _ e).symm)]

/-- The pipeline's arrays, window by window: the embeddings' array in two halves. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4) ∗ (((c : Thread nD τ).loc main_v3) ↦{fullShare} G 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

/-- The distinct buffers behind them, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)
          ∗ (((c : Thread nD τ).loc main_v3) ↦{fullShare} W main_v3)) := by
  unfold Pipeline.arrBufs
  exact bigSep_eq_bigSepL_of_eq [main_arg0, main_v0, main_v1, main_v2, main_v3] (by decide) (by decide) _

/-- The reshapes before the region, over the unscoped buffers. -/
def seg0 : Pipeline.HostSeg (Name := ℕ) (U := UR sig nD τ) (pcfgs (F := F)) defs₀ Variants.none L lv :=
  Pipeline.HostSeg.ofOps _ _ _ _ _ ucR hostOps0 hostOps0_in hostOps0_fresh (V₀ m) R

/-- The four operations after it, over the buffers as the region leaves them. -/
def seg1 : Pipeline.HostSeg (Name := ℕ) (U := UR sig nD τ) (pcfgs (F := F)) defs₀ Variants.none L lv :=
  Pipeline.HostSeg.ofOps _ _ _ _ _ ucR hostOps1 hostOps1_in hostOps1_fresh (Vout m) R

set_option backward.isDefEq.respectTransparency.types false in
/-- THE REGION. Entered holding every unscoped buffer whole at the contents after the reshapes: the five arrays the
    windows read or write go to the pipeline — the embeddings' array as two halves, one per window that reads it —,
    the rest bypasses; the scratch is the invariant's. Left with the halves put together again and the output array at
    its final contents. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) ucR (Vin m c) ∗ R c)
  post c := iprop(StableHlo.held (c : Thread nD τ) ucR (Vout m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) ucR (Vin m c) = unscopedBufs c (V m c) from (Pipeline.unscopedBufs_held c _).symm,
      Pipeline.unscopedBufs_split₀ cfgs (0 : Fin 1) winFacts₀0.arr_unscoped c (V m c), arrBufs_chain, arrays_chain]
    iintro ⟨⟨⟨⟨Ha0, Hv0, Hv1, Hv2, Hv3⟩, Hrest⟩, HO⟩, -, -⟩
    ihave Hs := (pointsTo_share (PosShare.mem_left_op_right fullShare)).1 $$ Ha0
    icases Hs with ⟨Hl, Hr⟩
    imodintro
    isplitl [Hl Hr Hv0 Hv1 Hv2 Hv3]
    · isplitl [Hl]; · iexact Hl
      isplitl [Hr]; · iexact Hr
      isplitl [Hv0]; · iexact Hv0
      isplitl [Hv1]; · iexact Hv1
      isplitl [Hv2]; · iexact Hv2
      iexact Hv3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiAcc m c 0 from rfl, scopedRest0_eq]; unfold PhiAcc
    simp only [owns_whole]
    iintro ⟨-, -, ⟨%f, Hs⟩⟩
    iexists f; isplitr; · ipureintro; intro h; exact absurd trivial h
    iexact Hs
  hout c := by
    rw [Pipeline.ownSems0_none, scopedRest0_eq, show (dats m 0 c).Φ (Fin.last cfg0.N) = PhiAcc m c cfg0.N from rfl]; unfold PhiAcc
    simp only [owns_whole]
    iintro ⟨%d, -, Hs⟩
    isplitr; · iempintro
    isplitr; · iempintro
    iexists d; iexact Hs
  hexit c := by
    rw [show StableHlo.held (c : Thread nD τ) ucR (Vout m c) = unscopedBufs c (fun b => Vout m c (Proc.devRef .tc b)) from (Pipeline.unscopedBufs_held c _).symm,
      Pipeline.unscopedBufs_split₀ cfgs (0 : Fin 1) winFacts₀0.arr_unscoped c (fun b => Vout m c (Proc.devRef .tc b)), arrBufs_chain, arrays_chain,
      unscopedRest0_eq c (fun b => Vout m c (Proc.devRef .tc b)), unscopedRest0_eq c (V m c)]
    rw [Vout_out, Vout_of_ne m c main_arg0 (by decide), Vout_of_ne m c main_v0 (by decide), Vout_of_ne m c main_v1 (by decide),
      Vout_of_ne m c main_v2 (by decide), Vout_of_ne m c main_arg1 (by decide), Vout_of_ne m c main_arg2 (by decide),
      Vout_of_ne m c main_cst (by decide), Vout_of_ne m c main_v4 (by decide), Vout_of_ne m c main_cst_0 (by decide),
      Vout_of_ne m c main_v5 (by decide)]
    rw [(dats m 0 c).arrAt_in 0 rfl, (dats m 0 c).arrAt_in 1 rfl, (dats m 0 c).arrAt_in 2 rfl, (dats m 0 c).arrAt_in 3 rfl,
      (dats m 0 c).arrAt_in 4 rfl]
    iintro ⟨⟨Hl, Hr, Hv0, Hv1, Hv2, Hv3⟩, HO, -, Hrest⟩
    ihave Ha0 := (pointsTo_share (PosShare.mem_left_op_right fullShare)).2 $$ [Hl Hr]
    · isplitl [Hl]; · iexact Hl
      iexact Hr
    imodintro
    isplitr [HO]
    · isplitl [Ha0 Hv0 Hv1 Hv2 Hv3]
      · isplitl [Ha0]; · iexact Ha0
        isplitl [Hv0]; · iexact Hv0
        isplitl [Hv1]; · iexact Hv1
        isplitl [Hv2]; · iexact Hv2
        iexact Hv3
      iexact Hrest
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none L lv) :=
  [.host (seg0 m), .region (reg0 m), .host (seg1 m)]

/-- The buffers at the end: the four host operations applied to what the region left. -/
abbrev Vfin (c : Dev nD) : Valuation τ sig (Elt F) := StableHlo.after hostOps1 (Vout m c)

set_option backward.isDefEq.respectTransparency.types false in
/-- At the compiled mesh, for any values, from any memory with zero counters: every weakly fair execution of @main on
    the TensorCores terminates, and every final state has every unscoped buffer at `Vfin`. -/
theorem run_all : θ_run defs (onTc (τ := τ) (main (F := F))) (s₀ m ρ)
    (fun r => ∀ c : Dev nD, ∀ b ∈ ucR, r.2.mem ((c : Thread nD τ).1, b) = Vfin m c b) :=
  Pipeline.θ_run_regions_kit (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucR (V₀ m c) ∗ R c))
    (Tₙ := fun c => StableHlo.held (c : Thread nD τ) ucR (Vfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucR (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ ucR, s.mem ((c : Thread nD τ).1, b) = Vfin m c b)
    (hfin := fun c s' => by
      unfold StableHlo.held
      iintro ⟨Hh, HSI⟩
      ihave Hr := (pointsTo_read_all ucR (fun b => ((c : Thread nD τ).1, b)) (Vfin m c) s') $$ [Hh HSI]
      · isplitl [Hh] <;> iassumption
      imodintro; iexact Hr)
    (hQ := fun _ h => h)

/-- No reshape writes a buffer other than its own result. -/
theorem not_written0 (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.reshape_writes, Finset.mem_singleton] <;>
    exact StableHlo.devRef_ne_of_ne ‹_›

/-- Nor does an operation after the region. -/
theorem not_written1 (b : Ref sig .tc) (hb : b ≠ main_cst ∧ b ≠ main_v4 ∧ b ≠ main_cst_0 ∧ b ≠ main_v5) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.nullary_writes, StableHlo.binary_writes, Finset.mem_singleton] <;>
    exact StableHlo.devRef_ne_of_ne ‹_›

/-- An argument reaches the end as launched: no host operation writes it and the region leaves it as found. -/
theorem Vfin_arg (c : Dev nD) (b : Ref sig .tc)
    (hb0 : b ≠ main_v0 ∧ b ≠ main_v1 ∧ b ≠ main_v2) (hb3 : b ≠ main_v3) (hb1 : b ≠ main_cst ∧ b ≠ main_v4 ∧ b ≠ main_cst_0 ∧ b ≠ main_v5) :
    Vfin m c (Proc.devRef .tc b) = m ((c : Thread nD τ).loc b) :=
  (StableHlo.after_of_forall_not_mem (b := Proc.devRef .tc b) hostOps1 (Vout m c) (not_written1 b hb1)).trans
    ((Vout_of_ne m c b hb3).trans
      (StableHlo.after_of_forall_not_mem (b := Proc.devRef .tc b) hostOps0 (V₀ m c) (not_written0 b hb0)))

/-- The result: the output array summed, over the count of rows. -/
theorem Vfin_result (c : Dev nD) :
    Vfin m c (Proc.devRef .tc main_v5)
      = Host.divf (Host.reduceAdd (finalOut m c) (constant S_ .f32 0x00000000#32) reducesTo_S8192x1_S_d0_1 h_S_) (constant S_ .f32 0x46000000#32) := by
  show StableHlo.after hostOps1 (Vout m c) (Proc.devRef .tc main_v5) = _
  after_results
  rw [Vout_out]

theorem mem_ucR (b : Ref sig .tc) (h : b.isScoped = false) : Proc.devRef .tc b ∈ (ucR : Finset (DevRef τ sig)) := by
  unfold ucR Pipeline.ucRefs StableHlo.tcRefs
  exact Finset.mem_filter.mpr ⟨Finset.mem_map_of_mem _ (Finset.mem_univ _), by simp [h]⟩

/-- THE FRAME and THE VALUE in one run: every execution terminates with the arguments as launched and the result the
    host tail of the output array. -/
theorem run_main : θ_run defs (onTc (τ := τ) (main (F := F))) ⟨m, fun _ => 0, ρ⟩ (fun r => ∀ c : Dev nD,
      r.2.mem ((c.tc : Thread nD τ).loc main_v5)
          = Host.divf (Host.reduceAdd (finalOut m c) (constant S_ .f32 0x00000000#32) reducesTo_S8192x1_S_d0_1 h_S_) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_ucR main_v5 rfl)).trans (Vfin_result m c),
     (h c _ (mem_ucR main_arg0 rfl)).trans (Vfin_arg m c main_arg0 (by decide) (by decide) (by decide)),
     (h c _ (mem_ucR main_arg1 rfl)).trans (Vfin_arg m c main_arg1 (by decide) (by decide) (by decide)),
     (h c _ (mem_ucR main_arg2 rfl)).trans (Vfin_arg m c main_arg2 (by decide) (by decide) (by decide))⟩) (run_all m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.Kernel.Hand

end
-- ==== Proof.IdealSide.Body.lean ====
import proofs.«173385_j80229989089698_1_alg».proof.Proof.Gen.KernelIdeal.Launch
import proofs.«173385_j80229989089698_1_alg».proof.Proof.Gen.KernelIdeal.Skeleton
import proofs.«173385_j80229989089698_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at one grid point, as a triple over whole staging memrefs: it leaves the five input buffers as
    found and stores into the scratch, and then into the output buffer, the running row sums — the previous
    contents of the scratch, or zeros at the first column tile of a row tile, plus this tile's row sums. -/

/-- The body's one branch: the column coordinate of the grid point is 0. -/
abbrev firstCol (i : grid0.Coords) : Prop := (Scalar.cmpi .ne (Scalar.extui (Scalar.cmpi .eq (BitVec.ofNat 32 (i 1).val) 0#32)) 0#32) = 1#1

/-- It holds exactly at the points that start a row tile. -/
theorem firstCol_iff : ∀ t : Fin cfg0.N, firstCol (grid0.coords t) ↔ t.val % 8 = 0 :=
  (by decide +kernel : ∀ t : Fin grid0.N, firstCol (grid0.coords t) ↔ t.val % 8 = 0)

/-- Reading a buffer back after a list of stores whose LAST one went through the whole-shape rectangle at zero offsets
    gives that store's payload, whatever was there before and whatever the earlier stores were: the last store covers
    every index. For any shape. -/
theorem read_after_whole_store {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

theorem hz00 : (![0, 0] : Fin 2 → Nat) = fun _ => 0 := by funext a; fin_cases a <;> rfl

/-- At a point that starts a row tile the scratch is zeroed first: whatever it and the output buffer held, both end at
    the tile's row sums over zeros. -/
theorem run_first (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc : firstCol i)
    (x2 : Vec F S1024x128 .f32) (x3 : Vec F S1024x128 .f32) (x4 : Vec F S1024x1 .i32) (x5 : Vec F S1x1024 .i32) (x6 : Vec F S1024x1 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k0_pay2 x2 x3 x4 x5 x6 (k0_pay1 (F := F)))
            ∗ owns (c : Thread nD τ) arg8 fullShare (k0_pay2 x2 x3 x4 x5 x6 (k0_pay1 (F := F)))) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5; obtain rfl := harg6.eq_unread hf6
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; (· iexact H7)
    ipureintro
    refine (read_after_whole_store _ _ hz00 _ _ _).trans ?_
    sl_unfold_words
    simp only [View.readCov_cons_toLoadRect, View.readCov_unit_zero (S := S1024x1) _ hz00, View.readAt_eq_ld, Memref.IsWhole.read_unread, View.ld_unit_zero (S := S1024x128) hz00, View.ld_unit_zero (S := S1024x1) hz00, View.ld_unit_zero (S := S1x1024) hz00]
  · iexists _; isplitr; swap; (· iexact H8)
    ipureintro
    sl_unfold_words
    refine (read_after_whole_store _ _ hz00 _ _ _).trans ?_
    simp only [View.readCov_cons_toLoadRect, View.readCov_unit_zero (S := S1024x1) _ hz00, View.readAt_eq_ld, Memref.IsWhole.read_unread, View.ld_unit_zero (S := S1024x128) hz00, View.ld_unit_zero (S := S1024x1) hz00, View.ld_unit_zero (S := S1x1024) hz00]

/-- At any other point the scratch holds the running sums `p` of the row tile so far: it and the output buffer end at
    `p` plus this tile's row sums. -/
theorem run_next (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc : ¬firstCol i)
    (x2 : Vec F S1024x128 .f32) (x3 : Vec F S1024x128 .f32) (x4 : Vec F S1024x1 .i32) (x5 : Vec F S1x1024 .i32) (x6 : Vec F S1024x1 .f32)
    (p : Vec F S1024x1 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ owns (c : Thread nD τ) arg8 fullShare p
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k0_pay2 x2 x3 x4 x5 x6 p)
            ∗ owns (c : Thread nD τ) arg8 fullShare (k0_pay2 x2 x3 x4 x5 x6 p)) -∗ K ⟨⟩))
      ⊢ wp frame (wpE (defs₀ (F := F)) Variants.none c none) E (cc0__contrastive_kernel i arg2 harg2 arg3 harg3 arg4 harg4 arg5 harg5 arg6 harg6 arg7 harg7 arg8 harg8) K := by
  simp only [cc0__contrastive_kernel_eq_skeleton]; unfold cc0__contrastive_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg8.eq_unread hf8
  sl_exec (disch := exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; (· iexact H7)
    ipureintro
    refine (read_after_whole_store _ _ hz00 _ _ _).trans ?_
    sl_unfold_words
    simp only [View.readCov_cons_toLoadRect, View.readCov_unit_zero (S := S1024x1) _ hz00, View.readAt_eq_ld, Memref.IsWhole.read_unread, View.ld_unit_zero (S := S1024x128) hz00, View.ld_unit_zero (S := S1024x1) hz00, View.ld_unit_zero (S := S1x1024) hz00]
  · iexists _; isplitr; swap; (· iexact H8)
    ipureintro
    sl_unfold_words
    refine (read_after_whole_store _ _ hz00 _ _ _).trans ?_
    simp only [View.readCov_cons_toLoadRect, View.readCov_unit_zero (S := S1024x1) _ hz00, View.readAt_eq_ld, Memref.IsWhole.read_unread, View.ld_unit_zero (S := S1024x128) hz00, View.ld_unit_zero (S := S1024x1) hz00, View.ld_unit_zero (S := S1x1024) hz00]

end Cert.KernelIdeal.Hand

end
-- ==== Proof.IdealSide.Data.lean ====
import proofs.«173385_j80229989089698_1_alg».proof.Proof.IdealSide.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The pipeline's proof data: what the region finds in the arrays, each window's block at a grid point, and the
    running row sums the scratch carries along a row tile — reset at the tile's first column tile, then one column
    tile's row sums added per point — which is also what the output window's buffer holds after each point. -/

variable (m : (ℓ : Loc nD τ sig) → Buf (Elt F) ℓ)

/-- Core `c`'s buffers at launch, as a valuation; -/
abbrev V₀ (c : Dev nD) : Valuation τ sig (Elt F) := fun b => m (c, b)
/-- when the region is entered, after the three reshapes; -/
abbrev Vin (c : Dev nD) : Valuation τ sig (Elt F) := StableHlo.after hostOps0 (V₀ m c)
/-- and that read at a TensorCore reference. -/
abbrev V (c : Dev nD) (b : Ref sig .tc) : Buf (Elt F) ((c : Thread nD τ).loc b) := Vin m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The five input blocks at a point, by what they are: the anchor rows' embeddings, the key rows' embeddings, the anchor
    rows' classes, the key rows' classes, the anchor rows' margins. -/
abbrev rowsAt (c : Dev nD) (t : Fin cfg0.N) : Vec F S1024x128 .f32 := iblk m c 0 t
abbrev colsAt (c : Dev nD) (t : Fin cfg0.N) : Vec F S1024x128 .f32 := iblk m c 1 t
abbrev rowClsAt (c : Dev nD) (t : Fin cfg0.N) : Vec F S1024x1 .i32 := iblk m c 2 t
abbrev colClsAt (c : Dev nD) (t : Fin cfg0.N) : Vec F S1x1024 .i32 := iblk m c 3 t
abbrev marginAt (c : Dev nD) (t : Fin cfg0.N) : Vec F S1024x1 .f32 := iblk m c 4 t

/-- One point's step: the running sums `p` plus this column tile's row sums. -/
def step (c : Dev nD) (t : Fin cfg0.N) (p : Vec F S1024x1 .f32) : Vec F S1024x1 .f32 :=
  k0_pay2 (rowsAt m c t) (colsAt m c t) (rowClsAt m c t) (colClsAt m c t) (marginAt m c t) p

/-- The running row sums after point `n`: a row tile's first column tile starts from zeros. -/
def accAt (c : Dev nD) : (n : ℕ) → n < cfg0.N → Vec F S1024x1 .f32
  | 0, h => step m c ⟨0, h⟩ (k0_pay1 (F := F))
  | n + 1, h => step m c ⟨n + 1, h⟩ (if (n + 1) % 8 = 0 then k0_pay1 (F := F) else accAt c n (Nat.lt_of_succ_lt h))

theorem accAt_first (c : Dev nD) (t : Fin cfg0.N) (h0 : t.val % 8 = 0) :
    accAt m c t.val t.isLt = step m c t (k0_pay1 (F := F)) := by
  obtain ⟨n, hn⟩ := t
  cases n with
  | zero => rfl
  | succ n => exact congrArg (step m c ⟨n + 1, hn⟩) (if_pos h0)

theorem accAt_next (c : Dev nD) (t : Fin cfg0.N) (h0 : ¬t.val % 8 = 0) :
    accAt m c t.val t.isLt = step m c t (accAt m c (t.val - 1) (Nat.lt_of_le_of_lt (Nat.sub_le _ _) t.isLt)) := by
  obtain ⟨n, hn⟩ := t
  cases n with
  | zero => exact absurd (Nat.zero_mod _) h0
  | succ n => exact congrArg (step m c ⟨n + 1, hn⟩) (if_neg h0)

/-- The scratch operand: a whole scoped buffer of the kernel's own. -/
abbrev scM : Memref sig .tc .vmem S1024x1 .f32 := Memref.whole cc0_scratch0

/-- The invariant before point `n`: the scratch at the running sums the point before left — at anything before a row
    tile's first column tile, whose body zeroes it. -/
def PhiAcc (c : Dev nD) (n : ℕ) : sProp 𝕄 :=
  iprop(∃ d : Vec F S1024x1 .f32, ⌜¬n % 8 = 0 → ∀ h : n - 1 < cfg0.N, d = accAt m c (n - 1) h⌝ ∗ owns (c : Thread nD τ) scM fullShare d)

/-- The proof data on core `c`: the arrays as the region finds them; after the body each input's buffer still at its
    block and the output's at the running sums; the scratch's invariant; nothing owed. The embeddings' array is handed to
    the kernel twice — as anchor rows and as key rows — and each of the two windows holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ t := PhiAcc m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = accAt m c t.val t.isLt := by dsimp only [dats]

/-- An input window's current buffer holds its block at every point, fetched there or not: unfetched, its block index
    has not moved since the point before, whose body left the block in place. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

end Cert.KernelIdeal.Hand

end
-- ==== Proof.IdealSide.Oblig.lean ====
import proofs.«173385_j80229989089698_1_alg».proof.Proof.IdealSide.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body obligation: at every grid point, from the scratch's invariant and every window's current buffer at what it
    then holds, the body runs to the invariant of the next point and every buffer at what the proof data says it leaves. -/

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem Phi_castSucc (c : Dev nD) (t : Fin cfg0.N) : (dats m 0 c).Φ t.castSucc = PhiAcc m c t.val := by
  dsimp only [dats]; simp only [Fin.coe_castSucc]

theorem Phi_succ (c : Dev nD) (t : Fin cfg0.N) : (dats m 0 c).Φ t.succ = PhiAcc m c (t.val + 1) := by
  dsimp only [dats]; simp only [Fin.val_succ]

set_option maxHeartbeats 1600000 in
/-- The body at any point. The inputs' buffers hold their blocks. At a point that starts a row tile the scratch may hold
    anything and ends, with the output buffer, at the tile's row sums over zeros; at any other point it holds the sums the
    point before left and both end at those plus this tile's row sums. Either way that is `accAt` at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4, after_5]
  rw [show (dats m 0 c).owesAt () t.succ = (dats m 0 c).owesAt () t.castSucc from rfl, Phi_castSucc, Phi_succ]
  unfold PhiAcc
  by_cases h0 : t.val % 8 = 0
  · rw [accAt_first m c t h0]; unfold step
    iintro ⟨⟨%p, -, HS⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((firstCol_iff t).mpr h0) (rowsAt m c t) (colsAt m c t) (rowClsAt m c t) (colClsAt m c t) (marginAt m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS]
    · iexists _; isplitr; swap; (· iexact HS)
      ipureintro; intro _ _
      exact (accAt_first m c t h0).symm
    isplitl [Ho]; · iexact Ho
    isplitl [H0]; · iexact H0
    isplitl [H1]; · iexact H1
    isplitl [H2]; · iexact H2
    isplitl [H3]; · iexact H3
    isplitl [H4]; · iexact H4
    iexact H5
  · rw [accAt_next m c t h0]; unfold step
    iintro ⟨⟨%p, %hp, HS⟩, Ho, ⟨%d0, H0⟩, ⟨%d1, H1⟩, ⟨%d2, H2⟩, ⟨%d3, H3⟩, ⟨%d4, H4⟩, ⟨%d5, H5⟩⟩
    obtain rfl := hp h0 (Nat.lt_of_le_of_lt (Nat.sub_le _ _) t.isLt)
    iapply (run_next c (grid0.coords t) _ _ _ _ _ _ _ _ _ _ _ _ _ _ (fun h => h0 ((firstCol_iff t).mp h)) (rowsAt m c t) (colsAt m c t) (rowClsAt m c t) (colClsAt m c t) (marginAt m c t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]
    · iexists _; isplitr; swap; (· iexact HS)
      ipureintro; intro _ _
      exact (accAt_next m c t h0).symm
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealSide.Launch.lean ====
import proofs.«173385_j80229989089698_1_alg».proof.Proof.IdealSide.Oblig
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The launch: @main is three reshapes, the kernel region, and four host operations on its result. The region is
    entered holding every unscoped buffer whole; the embeddings' array, which two windows read, is split into halves for
    the run and put together again at its end; the host operations after the region then read the output array. -/

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)
/-- The unscoped TensorCore buffers. -/
abbrev ucR : Finset (DevRef τ sig) := Pipeline.ucRefs τ sig

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h
theorem hostOps0_in : ∀ op ∈ (hostOps0 : List (HloOp τ sig (Elt F))), op.bufs ⊆ ucR :=
  fun op h => Pipeline.sub_ucRefs op ((List.forall_iff_forall_mem.mp hostOps0_sub) op h)
theorem hostOps1_in : ∀ op ∈ (hostOps1 : List (HloOp τ sig (Elt F))), op.bufs ⊆ ucR :=
  fun op h => Pipeline.sub_ucRefs op ((List.forall_iff_forall_mem.mp hostOps1_sub) op h)

/-- The output array after the run. -/
abbrev finalOut (c : Dev nD) : Buf (Elt F) ((c : Thread nD τ).loc main_v3) := (dats m 0 c).arrAt 5 cfg0.N

/-- The buffers when the region is left: the output array at its final contents, every other as the region found it. -/
def Vout (c : Dev nD) : Valuation τ sig (Elt F) := fun b =>
  if h : Proc.devRef .tc main_v3 = b then cast (congrArg (fun b' : DevRef τ sig => b'.ty.Contents (Elt F)) h) (finalOut m c)
  else Vin m c b

theorem Vout_out (c : Dev nD) : Vout m c (Proc.devRef .tc main_v3) = finalOut m c := by
  unfold Vout; rw [dif_pos rfl]; rfl

theorem Vout_of_ne (c : Dev nD) (b : Ref sig .tc) (h : b ≠ main_v3) : Vout m c (Proc.devRef .tc b) = V m c b := by
  unfold Vout; rw [dif_neg (fun e => h (Proc.devRef_injective (τ := τ) _ e).symm)]

/-- The pipeline's arrays, window by window: the embeddings' array in two halves. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4) ∗ (((c : Thread nD τ).loc main_v3) ↦{fullShare} G 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

/-- The distinct buffers behind them, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)
          ∗ (((c : Thread nD τ).loc main_v3) ↦{fullShare} W main_v3)) := by
  unfold Pipeline.arrBufs
  exact bigSep_eq_bigSepL_of_eq [main_arg0, main_v0, main_v1, main_v2, main_v3] (by decide) (by decide) _

/-- The reshapes before the region, over the unscoped buffers. -/
def seg0 : Pipeline.HostSeg (Name := ℕ) (U := UR sig nD τ) (pcfgs (F := F)) defs₀ Variants.none L lv :=
  Pipeline.HostSeg.ofOps _ _ _ _ _ ucR hostOps0 hostOps0_in hostOps0_fresh (V₀ m) R

/-- The four operations after it, over the buffers as the region leaves them. -/
def seg1 : Pipeline.HostSeg (Name := ℕ) (U := UR sig nD τ) (pcfgs (F := F)) defs₀ Variants.none L lv :=
  Pipeline.HostSeg.ofOps _ _ _ _ _ ucR hostOps1 hostOps1_in hostOps1_fresh (Vout m) R

set_option backward.isDefEq.respectTransparency.types false in
/-- THE REGION. Entered holding every unscoped buffer whole at the contents after the reshapes: the five arrays the
    windows read or write go to the pipeline — the embeddings' array as two halves, one per window that reads it —,
    the rest bypasses; the scratch is the invariant's. Left with the halves put together again and the output array at
    its final contents. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) ucR (Vin m c) ∗ R c)
  post c := iprop(StableHlo.held (c : Thread nD τ) ucR (Vout m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) ucR (Vin m c) = unscopedBufs c (V m c) from (Pipeline.unscopedBufs_held c _).symm,
      Pipeline.unscopedBufs_split₀ cfgs (0 : Fin 1) winFacts₀0.arr_unscoped c (V m c), arrBufs_chain, arrays_chain]
    iintro ⟨⟨⟨⟨Ha0, Hv0, Hv1, Hv2, Hv3⟩, Hrest⟩, HO⟩, -, -⟩
    ihave Hs := (pointsTo_share (PosShare.mem_left_op_right fullShare)).1 $$ Ha0
    icases Hs with ⟨Hl, Hr⟩
    imodintro
    isplitl [Hl Hr Hv0 Hv1 Hv2 Hv3]
    · isplitl [Hl]; · iexact Hl
      isplitl [Hr]; · iexact Hr
      isplitl [Hv0]; · iexact Hv0
      isplitl [Hv1]; · iexact Hv1
      isplitl [Hv2]; · iexact Hv2
      iexact Hv3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiAcc m c 0 from rfl, scopedRest0_eq]; unfold PhiAcc
    simp only [owns_whole]
    iintro ⟨-, -, ⟨%f, Hs⟩⟩
    iexists f; isplitr; · ipureintro; intro h; exact absurd trivial h
    iexact Hs
  hout c := by
    rw [Pipeline.ownSems0_none, scopedRest0_eq, show (dats m 0 c).Φ (Fin.last cfg0.N) = PhiAcc m c cfg0.N from rfl]; unfold PhiAcc
    simp only [owns_whole]
    iintro ⟨%d, -, Hs⟩
    isplitr; · iempintro
    isplitr; · iempintro
    iexists d; iexact Hs
  hexit c := by
    rw [show StableHlo.held (c : Thread nD τ) ucR (Vout m c) = unscopedBufs c (fun b => Vout m c (Proc.devRef .tc b)) from (Pipeline.unscopedBufs_held c _).symm,
      Pipeline.unscopedBufs_split₀ cfgs (0 : Fin 1) winFacts₀0.arr_unscoped c (fun b => Vout m c (Proc.devRef .tc b)), arrBufs_chain, arrays_chain,
      unscopedRest0_eq c (fun b => Vout m c (Proc.devRef .tc b)), unscopedRest0_eq c (V m c)]
    rw [Vout_out, Vout_of_ne m c main_arg0 (by decide), Vout_of_ne m c main_v0 (by decide), Vout_of_ne m c main_v1 (by decide),
      Vout_of_ne m c main_v2 (by decide), Vout_of_ne m c main_arg1 (by decide), Vout_of_ne m c main_arg2 (by decide),
      Vout_of_ne m c main_cst (by decide), Vout_of_ne m c main_v4 (by decide), Vout_of_ne m c main_cst_0 (by decide),
      Vout_of_ne m c main_v5 (by decide)]
    rw [(dats m 0 c).arrAt_in 0 rfl, (dats m 0 c).arrAt_in 1 rfl, (dats m 0 c).arrAt_in 2 rfl, (dats m 0 c).arrAt_in 3 rfl,
      (dats m 0 c).arrAt_in 4 rfl]
    iintro ⟨⟨Hl, Hr, Hv0, Hv1, Hv2, Hv3⟩, HO, -, Hrest⟩
    ihave Ha0 := (pointsTo_share (PosShare.mem_left_op_right fullShare)).2 $$ [Hl Hr]
    · isplitl [Hl]; · iexact Hl
      iexact Hr
    imodintro
    isplitr [HO]
    · isplitl [Ha0 Hv0 Hv1 Hv2 Hv3]
      · isplitl [Ha0]; · iexact Ha0
        isplitl [Hv0]; · iexact Hv0
        isplitl [Hv1]; · iexact Hv1
        isplitl [Hv2]; · iexact Hv2
        iexact Hv3
      iexact Hrest
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none L lv) :=
  [.host (seg0 m), .region (reg0 m), .host (seg1 m)]

/-- The buffers at the end: the four host operations applied to what the region left. -/
abbrev Vfin (c : Dev nD) : Valuation τ sig (Elt F) := StableHlo.after hostOps1 (Vout m c)

set_option backward.isDefEq.respectTransparency.types false in
/-- At the compiled mesh, for any values, from any memory with zero counters: every weakly fair execution of @main on
    the TensorCores terminates, and every final state has every unscoped buffer at `Vfin`. -/
theorem run_all : θ_run defs (onTc (τ := τ) (main (F := F))) (s₀ m ρ)
    (fun r => ∀ c : Dev nD, ∀ b ∈ ucR, r.2.mem ((c : Thread nD τ).1, b) = Vfin m c b) :=
  Pipeline.θ_run_regions_kit (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucR (V₀ m c) ∗ R c))
    (Tₙ := fun c => StableHlo.held (c : Thread nD τ) ucR (Vfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucR (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ ucR, s.mem ((c : Thread nD τ).1, b) = Vfin m c b)
    (hfin := fun c s' => by
      unfold StableHlo.held
      iintro ⟨Hh, HSI⟩
      ihave Hr := (pointsTo_read_all ucR (fun b => ((c : Thread nD τ).1, b)) (Vfin m c) s') $$ [Hh HSI]
      · isplitl [Hh] <;> iassumption
      imodintro; iexact Hr)
    (hQ := fun _ h => h)

/-- No reshape writes a buffer other than its own result. -/
theorem not_written0 (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.reshape_writes, Finset.mem_singleton] <;>
    exact StableHlo.devRef_ne_of_ne ‹_›

/-- Nor does an operation after the region. -/
theorem not_written1 (b : Ref sig .tc) (hb : b ≠ main_cst ∧ b ≠ main_v4 ∧ b ≠ main_cst_0 ∧ b ≠ main_v5) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.nullary_writes, StableHlo.binary_writes, Finset.mem_singleton] <;>
    exact StableHlo.devRef_ne_of_ne ‹_›

/-- An argument reaches the end as launched: no host operation writes it and the region leaves it as found. -/
theorem Vfin_arg (c : Dev nD) (b : Ref sig .tc)
    (hb0 : b ≠ main_v0 ∧ b ≠ main_v1 ∧ b ≠ main_v2) (hb3 : b ≠ main_v3) (hb1 : b ≠ main_cst ∧ b ≠ main_v4 ∧ b ≠ main_cst_0 ∧ b ≠ main_v5) :
    Vfin m c (Proc.devRef .tc b) = m ((c : Thread nD τ).loc b) :=
  (StableHlo.after_of_forall_not_mem (b := Proc.devRef .tc b) hostOps1 (Vout m c) (not_written1 b hb1)).trans
    ((Vout_of_ne m c b hb3).trans
      (StableHlo.after_of_forall_not_mem (b := Proc.devRef .tc b) hostOps0 (V₀ m c) (not_written0 b hb0)))

/-- The result: the output array summed, over the count of rows. -/
theorem Vfin_result (c : Dev nD) :
    Vfin m c (Proc.devRef .tc main_v5)
      = Host.divf (Host.reduceAdd (finalOut m c) (constant S_ .f32 0x00000000#32) reducesTo_S8192x1_S_d0_1 h_S_) (constant S_ .f32 0x46000000#32) := by
  show StableHlo.after hostOps1 (Vout m c) (Proc.devRef .tc main_v5) = _
  after_results
  rw [Vout_out]

theorem mem_ucR (b : Ref sig .tc) (h : b.isScoped = false) : Proc.devRef .tc b ∈ (ucR : Finset (DevRef τ sig)) := by
  unfold ucR Pipeline.ucRefs StableHlo.tcRefs
  exact Finset.mem_filter.mpr ⟨Finset.mem_map_of_mem _ (Finset.mem_univ _), by simp [h]⟩

/-- THE FRAME and THE VALUE in one run: every execution terminates with the arguments as launched and the result the
    host tail of the output array. -/
theorem run_main : θ_run defs (onTc (τ := τ) (main (F := F))) ⟨m, fun _ => 0, ρ⟩ (fun r => ∀ c : Dev nD,
      r.2.mem ((c.tc : Thread nD τ).loc main_v5)
          = Host.divf (Host.reduceAdd (finalOut m c) (constant S_ .f32 0x00000000#32) reducesTo_S8192x1_S_d0_1 h_S_) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_ucR main_v5 rfl)).trans (Vfin_result m c),
     (h c _ (mem_ucR main_arg0 rfl)).trans (Vfin_arg m c main_arg0 (by decide) (by decide) (by decide)),
     (h c _ (mem_ucR main_arg1 rfl)).trans (Vfin_arg m c main_arg1 (by decide) (by decide) (by decide)),
     (h c _ (mem_ucR main_arg2 rfl)).trans (Vfin_arg m c main_arg2 (by decide) (by decide) (by decide))⟩) (run_all m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.KernelIdeal.Hand

end
-- ==== Proof.PairLoss.lean ====
import Idealize.ShloMosaic.PureOps.Ideal.Laws
import Idealize.ShloMosaic.Lib.ValueIdx
import Mathlib.Algebra.BigOperators.Fin
import Mathlib.Logic.Equiv.Fin.Basic

/-!
# The pairwise contrastive loss over the extended reals

For embeddings `X` (8192 rows of 128), a margin `M` per anchor row and a class word `T` per row, the pair
`(a, b)` contributes `1 - s` when the classes agree and `s < 1`, and `s` when they differ and `s > M a`, where
`s = ⟨X a, X b⟩`. The loss is the sum over all pairs divided by 8192. Arrays are read here through total functions of a
natural row number, so that a row number assembled from a tile and an offset is plain arithmetic.

Two facts carry the comparison of two arrangements of this sum. On ONE pair, choosing by the class mask between the two
guarded terms is the SUM of the two terms each guarded by its own conjunction: the masks are complementary and the
default is zero (`select_split`). Over ALL pairs, a row's 8192 columns are 8 tiles of 1024 (`sum_tiles`), and a sum of
sums splits termwise, which the extended reals allow because their addition is a commutative monoid.
-/

noncomputable section

open scoped BigOperators

namespace Cert.PairLoss

open Idealize.ShloMosaic Idealize.ShloMosaic.ValueIdx

/-- The f32 words of the three literals both programs print. -/
abbrev one : EReal := (FloatOps.ofBits (F := Ideal) .f32 0x3F800000#32 : Ideal .f32)
abbrev zero : EReal := (FloatOps.ofBits (F := Ideal) .f32 0x00000000#32 : Ideal .f32)
abbrev count : EReal := (FloatOps.ofBits (F := Ideal) .f32 0x46000000#32 : Ideal .f32)

theorem zero_eq : zero = 0 := Ideal.ofBits_zero_f32

/-- A one-bit word is 0 or 1. -/
theorem bit_cases (b : BitVec 1) : b = 0#1 ∨ b = 1#1 := by
  by_cases h : b = 1#1
  · exact .inr h
  · exact .inl (eq_zero_of_ne_one h)

/-- One pair: the class mask choosing between the two guarded terms is the sum of the terms guarded by
    `same ∧ lt` and by `¬same ∧ gt` — at most one of which is not the zero default. -/
theorem select_split (e l g : BitVec 1) (u v : EReal) :
    Scalar.select e (Scalar.select l u 0) (Scalar.select g v 0)
      = Scalar.select (IntOp.andi e l) u 0 + Scalar.select (IntOp.andi (~~~e) g) v 0 := by
  rcases bit_cases e with rfl | rfl <;> rcases bit_cases l with rfl | rfl <;> rcases bit_cases g with rfl | rfl <;>
    simp [Scalar.select, IntOp.andi]

/-- The embeddings read by natural row number (zero past the last row, which no sum below reaches). -/
def rowsN (X : (⟨2, ![8192, 128]⟩ : Shape).Idx → EReal) (a : ℕ) (d : Fin 128) : EReal :=
  if h : a < 8192 then X (ix2 ⟨a, h⟩ d) else 0
/-- The margins read by natural row number. -/
def marginN (M : (⟨1, ![8192]⟩ : Shape).Idx → EReal) (a : ℕ) : EReal :=
  if h : a < 8192 then M (ix1 ⟨a, h⟩) else 0
/-- The class words read by natural row number. -/
def classN (T : (⟨1, ![8192]⟩ : Shape).Idx → BitVec 32) (a : ℕ) : BitVec 32 :=
  if h : a < 8192 then T (ix1 ⟨a, h⟩) else 0

theorem rowsN_val (X : (⟨2, ![8192, 128]⟩ : Shape).Idx → EReal) (a : Fin 8192) (d : Fin 128) : rowsN X a.val d = X (ix2 a d) := by
  unfold rowsN; rw [dif_pos a.isLt]
theorem marginN_val (M : (⟨1, ![8192]⟩ : Shape).Idx → EReal) (a : Fin 8192) : marginN M a.val = M (ix1 a) := by
  unfold marginN; rw [dif_pos a.isLt]
theorem classN_val (T : (⟨1, ![8192]⟩ : Shape).Idx → BitVec 32) (a : Fin 8192) : classN T a.val = T (ix1 a) := by
  unfold classN; rw [dif_pos a.isLt]

/-- The inner product of rows `a` and `b`. -/
def sim (X : ℕ → Fin 128 → EReal) (a b : ℕ) : EReal := ∑ d : Fin 128, X a d * X b d

/-- One pair's term from its similarity, the two class words and the anchor's margin. -/
def pair (s : EReal) (ta tb : BitVec 32) (mg : EReal) : EReal :=
  Scalar.select (IntOp.cmpi .eq ta tb)
    (Scalar.select (FloatOps.cmpf (F := Ideal) (φ := .f32) .olt s one) (FloatOps.subf (F := Ideal) (φ := .f32) one s) zero)
    (Scalar.select (FloatOps.cmpf (F := Ideal) (φ := .f32) .ogt s mg) s zero)

/-- The pair `(a, b)` of the arrays. -/
def term (X : ℕ → Fin 128 → EReal) (M : ℕ → EReal) (T : ℕ → BitVec 32) (a b : ℕ) : EReal :=
  pair (sim X a b) (T a) (T b) (M a)

/-- Anchor row `a`'s sum over all 8192 columns. -/
def rowLoss (X : ℕ → Fin 128 → EReal) (M : ℕ → EReal) (T : ℕ → BitVec 32) (a : ℕ) : EReal :=
  ∑ b : Fin 8192, term X M T a b.val

/-- The loss: every pair's term, over the count of rows. -/
def loss (X : ℕ → Fin 128 → EReal) (M : ℕ → EReal) (T : ℕ → BitVec 32) : EReal :=
  FloatOps.hostDivf (F := Ideal) (φ := .f32) (zero + ∑ a : Fin 8192, rowLoss X M T a.val) count

/-- A row's 8192 columns are 8 tiles of 1024 columns. -/
theorem sum_tiles {M : Type*} [AddCommMonoid M] (f : ℕ → M) :
    ∑ b : Fin 8192, f b.val = ∑ k ∈ Finset.range 8, ∑ q : Fin 1024, f (k * 1024 + q.val) := by
  rw [Finset.sum_range]
  rw [← Equiv.sum_comp (finProdFinEquiv (m := 8) (n := 1024)) (fun b : Fin (8 * 1024) => f b.val), Fintype.sum_prod_type]
  refine Finset.sum_congr rfl fun k _ => Finset.sum_congr rfl fun q _ => ?_
  congr 1
  simp only [finProdFinEquiv_apply_val]
  omega

/-- The two separately masked sums of the other arrangement add up to the one sum of `term`. -/
theorem sum_split (P Q Tm : Fin 8192 → Fin 8192 → EReal) (h : ∀ a b, Tm a b = P a b + Q a b) :
    (zero + ∑ a, ∑ b, P a b) + (zero + ∑ a, ∑ b, Q a b) = zero + ∑ a, ∑ b, Tm a b := by
  simp only [zero_eq, zero_add, h, Finset.sum_add_distrib]

end Cert.PairLoss

end
-- ==== Proof.IdealSide.TileSums.lean ====
import proofs.«173385_j80229989089698_1_alg».proof.Proof.Gen.KernelIdeal.Skeleton
import proofs.«173385_j80229989089698_1_alg».proof.Proof.PairLoss
import Idealize.ShloMosaic.Lib.Pipeline.Value
import Idealize.ShloMosaic.Lib.ValueIdx
import Idealize.ShloMosaic.Lib.ValueLayout
import Idealize.ShloMosaic.PureOps.Ideal.Laws

/-! One grid point's arithmetic, read at a row over the extended reals: the kernel's stored vector at row `r` is the
    running sum there plus, over the tile's 1024 key rows `q`, the pair term of the anchor row `r` and the key row `q`. -/

noncomputable section

open scoped BigOperators

namespace Cert.KernelIdeal.TileSums

open Cert.KernelIdeal Cert.KernelIdeal.Gen Idealize.ShloMosaic Idealize.ShloMosaic.ValueIdx Cert.PairLoss

/-- The zero fill of the scratch reads zero at every row. -/
theorem pay1_apply (j : S1024x1.Idx) : k0_pay1 (F := Ideal) j = 0 := by
  unfold k0_pay1
  rw [shapeCast_self]
  exact Ideal.ofBits_zero_f32

/-! The product block's operand indices: both operands keep axis 0 and contract axis 1. -/

theorem lhs_kept (i : S1024x1024.Idx) (k : dot_S1024x128_S1024x128_S1024x1024_1_1_0_0_n_n.contr.Idx) :
    (dot_S1024x128_S1024x128_S1024x1024_1_1_0_0_n_n.lhsIdx i k 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_contr (i : S1024x1024.Idx) (k : dot_S1024x128_S1024x128_S1024x1024_1_1_0_0_n_n.contr.Idx) :
    (dot_S1024x128_S1024x128_S1024x1024_1_1_0_0_n_n.lhsIdx i k 1).val = (k ⟨0, by decide⟩).val :=
  dot_S1024x128_S1024x128_S1024x1024_1_1_0_0_n_n.lhsIdx_val_of_single rfl i k
theorem rhs_kept (i : S1024x1024.Idx) (k : dot_S1024x128_S1024x128_S1024x1024_1_1_0_0_n_n.contr.Idx) :
    (dot_S1024x128_S1024x128_S1024x1024_1_1_0_0_n_n.rhsIdx i k 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_contr (i : S1024x1024.Idx) (k : dot_S1024x128_S1024x128_S1024x1024_1_1_0_0_n_n.contr.Idx) :
    (dot_S1024x128_S1024x128_S1024x1024_1_1_0_0_n_n.rhsIdx i k 1).val = (k ⟨0, by decide⟩).val :=
  dot_S1024x128_S1024x128_S1024x1024_1_1_0_0_n_n.rhsIdx_val_of_single rfl i k

/-- The product block at `(r, q)` is the inner product of anchor row `r` and key row `q`. -/
theorem sim_apply (xr xc : Vec Ideal S1024x128 .f32) (r q : Fin 1024) :
    matmul (F := Ideal) (φ₁ := .f32) (φ₂ := .f32) dot_S1024x128_S1024x128_S1024x1024_1_1_0_0_n_n none xr xc (constant S1024x1024 .f32 0x00000000#32) (ix2 r q)
      = ∑ d : Fin 128, xr (ix2 r d) * xc (ix2 q d) := by
  simp only [matmul]
  refine (Ideal.matmul_constant_zero_apply _ _ _ _ _).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 r q) ((contrEquiv1 dot_S1024x128_S1024x128_S1024x1024_1_1_0_0_n_n 128 rfl rfl).symm k) = ix2 r k := funext fun a => Fin.ext (by
    match a with
    | ⟨0, _⟩ => exact lhs_kept _ _
    | ⟨1, _⟩ => exact (lhs_contr _ _).trans hk)
  have er : dot_S1024x128_S1024x128_S1024x1024_1_1_0_0_n_n.rhsIdx (ix2 r q) ((contrEquiv1 dot_S1024x128_S1024x128_S1024x1024_1_1_0_0_n_n 128 rfl rfl).symm k) = ix2 q k := funext fun a => Fin.ext (by
    match a with
    | ⟨0, _⟩ => exact rhs_kept _ _
    | ⟨1, _⟩ => exact (rhs_contr _ _).trans hk)
  rw [el, er]

/-- A column `[1024, 1]` broadcast along the key axis reads, at `(r, q)`, the column at row `r`. -/
theorem bcast_col {α : Type} (v : S1024x1.Idx → α) (r q : Fin 1024) :
    broadcastTo S1024x1024 v broadcasts_S1024x1_S1024x1024 (ix2 r q) = v (ix2 r (0 : Fin 1)) := by
  refine broadcastTo_apply v broadcasts_S1024x1_S1024x1024 (ix2 r q) (ix2 r (0 : Fin 1)) fun ax => ?_
  match ax with
  | ⟨0, _⟩ => show r.val = if (1024 : Nat) = 1 then 0 else r.val; rw [if_neg (by decide)]
  | ⟨1, _⟩ => show 0 = if (1 : Nat) = 1 then 0 else q.val; rw [if_pos rfl]

/-- The row sums `[1024]` cast to a column `[1024, 1]` read, at `(r, 0)`, the sum of row `r`. -/
theorem cast_col {α : Type} (v : S1024.Idx → α) (r : Fin 1024) :
    shapeCast S1024x1 v shapeCasts_S1024_S1024x1 (ix2 r (0 : Fin 1)) = v (ix1 r) :=
  shapeCast_apply v shapeCasts_S1024_S1024x1 _ _ (by
    rw [Shape.rowMajor_val_two, Shape.rowMajor_val_one]
    show r.val = r.val * 1 + 0
    rw [Nat.mul_one, Nat.add_zero])

/-- One point's stored vector at row `r`. -/
theorem pay2_apply (xr xc : Vec Ideal S1024x128 .f32) (tr : Vec Ideal S1024x1 .i32) (tc : Vec Ideal S1x1024 .i32)
    (mg p : Vec Ideal S1024x1 .f32) (r : Fin 1024) :
    k0_pay2 (F := Ideal) xr xc tr tc mg p (ix2 r (0 : Fin 1))
      = p (ix2 r (0 : Fin 1))
        + ∑ q : Fin 1024, pair (∑ d : Fin 128, xr (ix2 r d) * xc (ix2 q d)) (tr (ix2 r (0 : Fin 1))) (tc (ix2 (0 : Fin 1) q)) (mg (ix2 r (0 : Fin 1))) := by
  unfold k0_pay2
  rw [shapeCast_self]
  refine congrArg (p (ix2 r (0 : Fin 1)) + ·) ?_
  refine (cast_col _ r).trans ?_
  refine (Ideal.multiReduction_add_single _ _ _ _ _ _).trans ?_
  refine Finset.sum_congr rfl fun q _ => ?_
  have hq : reduces_S1024x1024_S1024.lift (ix1 r) q = ix2 r q := funext fun a => Fin.ext (by
    match a with
    | ⟨0, _⟩ => rfl
    | ⟨1, _⟩ => rfl)
  rw [hq, shapeCast_self, shapeCast_self, shapeCast_self]
  have hs := sim_apply xr xc r q
  have h1 := bcast_col tr r q
  have h2 := broadcastTo_1b_ab_apply tc broadcasts_S1x1024_S1024x1024 r q
  have h3 := bcast_col mg r q
  unfold pair
  rw [← hs, ← h1, ← h2, ← h3]
  rfl

end Cert.KernelIdeal.TileSums

end
-- ==== Proof.IdealSide.RowSums.lean ====
import proofs.«173385_j80229989089698_1_alg».proof.Proof.IdealSide.Data
import proofs.«173385_j80229989089698_1_alg».proof.Proof.IdealSide.TileSums
import proofs.«173385_j80229989089698_1_alg».proof.Proof.PairLoss
import Idealize.ShloMosaic.Lib.StableHlo.Run

/-! The kernel's output array over the extended reals: row `a` ends holding the sum, over all 8192 key rows, of the
    pair terms of anchor `a` — accumulated one column tile per grid point along the row tile of `a`, and written back
    at the row tile's last column tile. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.PairLoss

variable (m : (ℓ : Loc nD τ sig) → Buf (Elt Ideal) ℓ)

/-- The three arguments as launched on core `c`: the embeddings, the margins, the class words. -/
abbrev embArg (c : Dev nD) : S8192x128.Idx → EReal := m ((c : Thread nD τ).loc main_arg0)
abbrev marginArg (c : Dev nD) : S8192.Idx → EReal := m ((c : Thread nD τ).loc main_arg1)
abbrev classArg (c : Dev nD) : S8192.Idx → BitVec 32 := m ((c : Thread nD τ).loc main_arg2)

/-! The arrays as the kernel region finds them: the embeddings as launched, the class words and the margins reshaped. -/

theorem V_arg0 (c : Dev nD) : (V m c main_arg0 : S8192x128.Idx → EReal) = embArg m c := by
  dsimp only [V, Vin, hostOps0]
  after_results

theorem V_v0 (c : Dev nD) : (V m c main_v0 : S8192x1.Idx → BitVec 32) = shapeCast S8192x1 (classArg m c) shapeCasts_S8192_S8192x1 := by
  dsimp only [V, Vin, hostOps0]
  after_results
  rfl

theorem V_v1 (c : Dev nD) : (V m c main_v1 : S1x8192.Idx → BitVec 32) = shapeCast S1x8192 (classArg m c) shapeCasts_S8192_S1x8192 := by
  dsimp only [V, Vin, hostOps0]
  after_results
  rfl

theorem V_v2 (c : Dev nD) : (V m c main_v2 : S8192x1.Idx → EReal) = shapeCast S8192x1 (marginArg m c) shapeCasts_S8192_S8192x1 := by
  dsimp only [V, Vin, hostOps0]
  after_results
  rfl

/-- A column `[8192, 1]` reshaped from `[8192]` reads, at `(a, 0)`, the array at `a`. -/
theorem col_cast {α : Type} (v : S8192.Idx → α) (a : Fin 8192) :
    shapeCast S8192x1 v shapeCasts_S8192_S8192x1 (ix2 a (0 : Fin 1)) = v (ix1 a) :=
  shapeCast_apply v shapeCasts_S8192_S8192x1 _ _ (by
    rw [Shape.rowMajor_val_two, Shape.rowMajor_val_one]
    show a.val = a.val * 1 + 0
    rw [Nat.mul_one, Nat.add_zero])

/-- A row `[1, 8192]` reshaped from `[8192]` reads, at `(0, a)`, the array at `a`. -/
theorem row_cast {α : Type} (v : S8192.Idx → α) (a : Fin 8192) :
    shapeCast S1x8192 v shapeCasts_S8192_S1x8192 (ix2 (0 : Fin 1) a) = v (ix1 a) :=
  shapeCast_apply v shapeCasts_S8192_S1x8192 _ _ (by
    rw [Shape.rowMajor_val_two, Shape.rowMajor_val_one]
    show a.val = 0 * 8192 + a.val
    rw [Nat.zero_mul, Nat.zero_add])

/-! The index maps, decided over the grid: point `t` is row tile `t / 8` and column tile `t % 8`. -/

theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

theorem rowTile_lt (t : Fin cfg0.N) (r : Fin 1024) : (t.val / 8) * 1024 + r.val < 8192 := by
  have h1 := t.isLt
  have h2 : cfg0.N = 64 := N_0
  have h3 := r.isLt
  omega

theorem colTile_lt (t : Fin cfg0.N) (q : Fin 1024) : (t.val % 8) * 1024 + q.val < 8192 := by
  have h3 := q.isLt
  omega

/-! The five input blocks at a point, read at explicit coordinates, are the arguments at the tile's rows. -/

theorem rowsAt_apply (c : Dev nD) (t : Fin cfg0.N) (r : Fin 1024) (d : Fin 128) :
    rowsAt m c t (ix2 r d) = rowsN (embArg m c) ((t.val / 8) * 1024 + r.val) d := by
  rw [show (t.val / 8) * 1024 + r.val = (⟨_, rowTile_lt t r⟩ : Fin 8192).val from rfl, rowsN_val]
  unfold rowsAt iblk
  rw [View.read_apply]
  show (V m c main_arg0 : S8192x128.Idx → EReal) _ = _
  rw [V_arg0]
  congr 1
  funext a
  apply Fin.ext
  match a with
  | ⟨0, _⟩ => show win0_0.index t (0 : Fin 2) * 1024 + 1 * r.val = (t.val / 8) * 1024 + r.val; rw [(idx0 t).1]; omega
  | ⟨1, _⟩ => show win0_0.index t (1 : Fin 2) * 128 + 1 * d.val = d.val; rw [(idx0 t).2]; omega

theorem colsAt_apply (c : Dev nD) (t : Fin cfg0.N) (q : Fin 1024) (d : Fin 128) :
    colsAt m c t (ix2 q d) = rowsN (embArg m c) ((t.val % 8) * 1024 + q.val) d := by
  rw [show (t.val % 8) * 1024 + q.val = (⟨_, colTile_lt t q⟩ : Fin 8192).val from rfl, rowsN_val]
  unfold colsAt iblk
  rw [View.read_apply]
  show (V m c main_arg0 : S8192x128.Idx → EReal) _ = _
  rw [V_arg0]
  congr 1
  funext a
  apply Fin.ext
  match a with
  | ⟨0, _⟩ => show win0_1.index t (0 : Fin 2) * 1024 + 1 * q.val = (t.val % 8) * 1024 + q.val; rw [(idx1 t).1]; omega
  | ⟨1, _⟩ => show win0_1.index t (1 : Fin 2) * 128 + 1 * d.val = d.val; rw [(idx1 t).2]; omega

theorem rowClsAt_apply (c : Dev nD) (t : Fin cfg0.N) (r : Fin 1024) :
    rowClsAt m c t (ix2 r (0 : Fin 1)) = classN (classArg m c) ((t.val / 8) * 1024 + r.val) := by
  rw [show (t.val / 8) * 1024 + r.val = (⟨_, rowTile_lt t r⟩ : Fin 8192).val from rfl, classN_val]
  unfold rowClsAt iblk
  rw [View.read_apply]
  show (V m c main_v0 : S8192x1.Idx → BitVec 32) _ = _
  rw [V_v0]
  refine Eq.trans (congrArg _ ?_) (col_cast _ _)
  funext a
  apply Fin.ext
  match a with
  | ⟨0, _⟩ => show win0_2.index t (0 : Fin 2) * 1024 + 1 * r.val = (t.val / 8) * 1024 + r.val; rw [(idx2 t).1]; omega
  | ⟨1, _⟩ => show win0_2.index t (1 : Fin 2) * 1 + 1 * 0 = 0; rw [(idx2 t).2]

theorem colClsAt_apply (c : Dev nD) (t : Fin cfg0.N) (q : Fin 1024) :
    colClsAt m c t (ix2 (0 : Fin 1) q) = classN (classArg m c) ((t.val % 8) * 1024 + q.val) := by
  rw [show (t.val % 8) * 1024 + q.val = (⟨_, colTile_lt t q⟩ : Fin 8192).val from rfl, classN_val]
  unfold colClsAt iblk
  rw [View.read_apply]
  show (V m c main_v1 : S1x8192.Idx → BitVec 32) _ = _
  rw [V_v1]
  refine Eq.trans (congrArg _ ?_) (row_cast _ _)
  funext a
  apply Fin.ext
  match a with
  | ⟨0, _⟩ => show win0_3.index t (0 : Fin 2) * 1 + 1 * 0 = 0; rw [(idx3 t).1]
  | ⟨1, _⟩ => show win0_3.index t (1 : Fin 2) * 1024 + 1 * q.val = (t.val % 8) * 1024 + q.val; rw [(idx3 t).2]; omega

theorem marginAt_apply (c : Dev nD) (t : Fin cfg0.N) (r : Fin 1024) :
    marginAt m c t (ix2 r (0 : Fin 1)) = marginN (marginArg m c) ((t.val / 8) * 1024 + r.val) := by
  rw [show (t.val / 8) * 1024 + r.val = (⟨_, rowTile_lt t r⟩ : Fin 8192).val from rfl, marginN_val]
  unfold marginAt iblk
  rw [View.read_apply]
  show (V m c main_v2 : S8192x1.Idx → EReal) _ = _
  rw [V_v2]
  refine Eq.trans (congrArg _ ?_) (col_cast _ _)
  funext a
  apply Fin.ext
  match a with
  | ⟨0, _⟩ => show win0_4.index t (0 : Fin 2) * 1024 + 1 * r.val = (t.val / 8) * 1024 + r.val; rw [(idx4 t).1]; omega
  | ⟨1, _⟩ => show win0_4.index t (1 : Fin 2) * 1 + 1 * 0 = 0; rw [(idx4 t).2]

/-! One point adds, at anchor row `r` of its row tile, the pair terms of its column tile's 1024 key rows. -/

theorem step_apply (c : Dev nD) (t : Fin cfg0.N) (p : Vec Ideal S1024x1 .f32) (r : Fin 1024) :
    step m c t p (ix2 r (0 : Fin 1))
      = p (ix2 r (0 : Fin 1))
        + ∑ q : Fin 1024, term (rowsN (embArg m c)) (marginN (marginArg m c)) (classN (classArg m c))
            ((t.val / 8) * 1024 + r.val) ((t.val % 8) * 1024 + q.val) := by
  unfold step
  rw [TileSums.pay2_apply (rowsAt m c t) (colsAt m c t) (rowClsAt m c t) (colClsAt m c t) (marginAt m c t) p r]
  refine congrArg (p (ix2 r (0 : Fin 1)) + ·) ?_
  refine Finset.sum_congr rfl fun q _ => ?_
  unfold term sim
  rw [rowClsAt_apply m c t r, colClsAt_apply m c t q, marginAt_apply m c t r]
  refine congrArg (fun s => pair s _ _ _) ?_
  refine Finset.sum_congr rfl fun d _ => ?_
  rw [rowsAt_apply m c t r d, colsAt_apply m c t q d]

/-- The running sums after point `n`, at anchor row `r` of the row tile `n / 8`: the pair terms of the key rows of the
    column tiles `0 … n % 8`. -/
theorem accAt_apply (c : Dev nD) (n : ℕ) : ∀ (hn : n < cfg0.N) (r : Fin 1024),
    accAt m c n hn (ix2 r (0 : Fin 1))
      = ∑ k ∈ Finset.range (n % 8 + 1), ∑ q : Fin 1024,
          term (rowsN (embArg m c)) (marginN (marginArg m c)) (classN (classArg m c)) ((n / 8) * 1024 + r.val) (k * 1024 + q.val) := by
  induction n using Nat.strong_induction_on with
  | _ n ih =>
    intro hn r
    by_cases h : n % 8 = 0
    · rw [(accAt_first m c ⟨n, hn⟩ h : accAt m c n hn = _), step_apply m c ⟨n, hn⟩ _ r, TileSums.pay1_apply, zero_add]
      show ∑ q : Fin 1024, term _ _ _ (n / 8 * 1024 + r.val) (n % 8 * 1024 + q.val) = _
      rw [h, Finset.sum_range_one]
    · rw [(accAt_next m c ⟨n, hn⟩ h : accAt m c n hn = _), step_apply m c ⟨n, hn⟩ _ r]
      show accAt m c (n - 1) _ (ix2 r (0 : Fin 1)) + ∑ q : Fin 1024, term _ _ _ (n / 8 * 1024 + r.val) (n % 8 * 1024 + q.val) = _
      rw [ih (n - 1) (by omega) _ r]
      have e1 : (n - 1) / 8 = n / 8 := by omega
      have e2 : (n - 1) % 8 + 1 = n % 8 := by omega
      rw [e1, e2, Finset.sum_range_succ]

/-! The written-back block at a row tile's last column tile, and the cover of the output array by those blocks. -/

/-- An index of a column `[1024, 1]` is its row and 0. -/
theorem col_idx (y : S1024x1.Idx) : ∃ r : Fin 1024, y = ix2 r (0 : Fin 1) :=
  ⟨y 0, funext fun a => by
    match a with
    | ⟨0, _⟩ => rfl
    | ⟨1, _⟩ => exact Fin.ext (by have := idx2_lt1 y; show (y 1).val = 0; omega)⟩

/-- What the output array ends holding: each row's loss. -/
abbrev lossCol (c : Dev nD) : S8192x1.Idx → EReal :=
  fun j => rowLoss (rowsN (embArg m c)) (marginN (marginArg m c)) (classN (classArg m c)) (j 0).val

/-- At a row tile's last column tile the running sums are the rows' whole sums: the block written back there is the
    block of the row losses. -/
theorem flushed_eq (c : Dev nD) (t : Fin cfg0.N) (hf : (cfg0.win 5).flush t = true) :
    (dats (F := Ideal) m 0 c).flushed 5 t = ((cfg0.win 5).blk t).view.read (Elt Ideal) (lossCol m c) := by
  have h7 : t.val % 8 = 7 := (flush0_5 t).mp hf
  show (cfg0.win 5).cut (grid0.coords t) ((dats (F := Ideal) m 0 c).after 5 t) = _
  rw [after_5]
  show (accAt m c t.val t.isLt : S1024x1.Idx → EReal) = _
  funext y
  obtain ⟨r, rfl⟩ := col_idx y
  rw [accAt_apply m c t.val t.isLt r, h7, View.read_apply]
  show _ = rowLoss _ _ _ (win0_5.index t (0 : Fin 2) * 1024 + 1 * r.val)
  rw [(idx5 t).1, Nat.one_mul]
  unfold rowLoss
  rw [sum_tiles (fun b => term (rowsN (embArg m c)) (marginN (marginArg m c)) (classN (classArg m c)) (t.val / 8 * 1024 + r.val) b)]

/-- An index of the output array is in point `t`'s block iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v3).slice (win0_5.rect t)).set ↔ _
  rw [View.set_slice_whole, Rect.mem_set_unit]
  exact Iff.rfl

/-- Every row of the output lies in the block written back at its row tile's last column tile. -/
theorem cover (j : S8192x1.Idx) : ∃ t : Fin cfg0.N, (cfg0.win 5).flush t = true ∧ j ∈ ((cfg0.win 5).blk t).view.set := by
  have hj0 : (j 0).val < 8192 := idx2_lt0 j
  have hj1 : (j 1).val < 1 := idx2_lt1 j
  have hN : cfg0.N = 64 := N_0
  have hlt : 8 * ((j 0).val / 1024) + 7 < cfg0.N := by omega
  have e := idx5 ⟨8 * ((j 0).val / 1024) + 7, hlt⟩
  have e0 : win0_5.index ⟨8 * ((j 0).val / 1024) + 7, hlt⟩ (0 : Fin 2) = (8 * ((j 0).val / 1024) + 7) / 8 := e.1
  have e1 : win0_5.index ⟨8 * ((j 0).val / 1024) + 7, hlt⟩ (1 : Fin 2) = 0 := e.2
  refine ⟨⟨8 * ((j 0).val / 1024) + 7, hlt⟩, (flush0_5 _).mpr (by show (8 * ((j 0).val / 1024) + 7) % 8 = 7; omega), ?_⟩
  rw [mem_blk5]
  intro a
  match a with
  | ⟨0, _⟩ =>
    show win0_5.index ⟨8 * ((j 0).val / 1024) + 7, hlt⟩ (0 : Fin 2) * 1024 ≤ (j 0).val ∧ (j 0).val < win0_5.index ⟨8 * ((j 0).val / 1024) + 7, hlt⟩ (0 : Fin 2) * 1024 + 1024
    rw [e0]; omega
  | ⟨1, _⟩ =>
    show win0_5.index ⟨8 * ((j 0).val / 1024) + 7, hlt⟩ (1 : Fin 2) * 1 ≤ (j 1).val ∧ (j 1).val < win0_5.index ⟨8 * ((j 0).val / 1024) + 7, hlt⟩ (1 : Fin 2) * 1 + 1
    rw [e1]; omega

/-- The output array after the run: each row's loss. -/
theorem finalOut_eq (c : Dev nD) :
    (dats (F := Ideal) m 0 c).arrAt 5 cfg0.N
      = fun j : S8192x1.Idx => rowLoss (rowsN (embArg m c)) (marginN (marginArg m c)) (classN (classArg m c)) (j 0).val :=
  (dats (F := Ideal) m 0 c).arrAt_eq_of_cover 5 (lossCol m c) (fun t hf => flushed_eq m c t hf) cover

end Cert.KernelIdeal.Hand

end
-- ==== Proof.IdealSide.Result.lean ====
import proofs.«173385_j80229989089698_1_alg».proof.Proof.IdealSide.Launch
import proofs.«173385_j80229989089698_1_alg».proof.Proof.IdealSide.RowSums
import Idealize.ShloMosaic.PureOps.Ideal.Laws

/-! The kernel's result over the extended reals: the host's sum of the output array — each row's loss — over the
    count of rows is the pairwise loss. -/

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Cert.PairLoss

variable (m : (ℓ : Loc nD τ sig) → Buf (Elt Ideal) ℓ)

/-- Summing the output column and dividing by the count gives the loss of the three arguments. -/
theorem result_eq (c : Dev nD) :
    Host.divf (F := Ideal) (Host.reduceAdd (F := Ideal) (finalOut (F := Ideal) m c) (constant (F := Ideal) S_ .f32 0x00000000#32) reducesTo_S8192x1_S_d0_1 h_S_)
        (constant (F := Ideal) S_ .f32 0x46000000#32)
      = fun _ => loss (rowsN (embArg m c)) (marginN (marginArg m c)) (classN (classArg m c)) := by
  funext i
  unfold loss
  refine congrArg (fun s => FloatOps.hostDivf (F := Ideal) (φ := .f32) s count) ?_
  simp only [Host.reduceAdd, Ideal.hostReduceAdd_def]
  refine (Ideal.hostReduceAdd_total reducesTo_S8192x1_S_d0_1 (fun b => b.elim0) _ _ i).trans ?_
  refine congrArg (zero + ·) ?_
  unfold finalOut
  rw [finalOut_eq m c]
  rw [sum_idx2 (n0 := 8192) (n1 := 1)]
  refine Finset.sum_congr rfl fun a _ => ?_
  rw [Fin.sum_univ_one]

end Cert.KernelIdeal.Hand

end
-- ==== Proof.RefLoss.lean ====
import proofs.«173385_j80229989089698_1_alg».proof.Proof.Gen.ReferenceIdeal.Read
import proofs.«173385_j80229989089698_1_alg».proof.Proof.PairLoss

/-! The reference's result over the extended reals is the pairwise loss: its two masked sums over all pairs — the
    same-class pairs below similarity one, the other-class pairs above the anchor's margin — add up, pair by pair, to the
    one sum of pair terms. -/

noncomputable section

open scoped BigOperators

namespace Cert.ReferenceIdeal.RefLoss

open Cert.ReferenceIdeal Cert.ReferenceIdeal.Gen Cert.ReferenceIdeal.Read Idealize.ShloMosaic Idealize.ShloMosaic.ValueIdx Cert.PairLoss

/-- The similarity stage at the pair `(a, b)` is the inner product of rows `a` and `b`. -/
theorem sim_pair (x0 : (⟨S8192x128, .f32⟩ : BufTy).Contents (Elt Ideal)) (a b : Fin 8192) :
    val_main_v1 (F := Ideal) x0 (ix2 a b) = sim (rowsN x0) a.val b.val := by
  rw [val_main_v1_apply]
  unfold sim
  refine Finset.sum_congr rfl fun k _ => ?_
  rw [val_main_v0_apply]
  have hl : lidx_main_v1 (ix2 a b) k = ix2 a k :=
    funext fun d => Fin.ext (by match d with | ⟨0, _⟩ => rfl | ⟨1, _⟩ => rfl)
  have hr : idx_main_v0 (ridx_main_v1 (ix2 a b) k) = ix2 b k :=
    funext fun d => Fin.ext (by match d with | ⟨0, _⟩ => rfl | ⟨1, _⟩ => rfl)
  rw [hl, hr, rowsN_val, rowsN_val]

/-- The class mask at the pair `(a, b)` compares the class words of rows `a` and `b`. -/
theorem same_pair (x2 : (⟨S8192, .i32⟩ : BufTy).Contents (Elt Ideal)) (a b : Fin 8192) :
    val_main_v6 (F := Ideal) x2 (ix2 a b) = IntOp.cmpi .eq (classN x2 a.val) (classN x2 b.val) := by
  rw [val_main_v6_apply, val_main_v4_apply, val_main_v2_apply, val_main_v5_apply, val_main_v3_apply]
  have h4 : idx_main_v2 (idx_main_v4 (ix2 a b)) = ix1 a :=
    funext fun d => Fin.ext (by match d with | ⟨0, _⟩ => rfl)
  have h5 : idx_main_v3 (idx_main_v5 (ix2 a b)) = ix1 b :=
    funext fun d => Fin.ext (by match d with | ⟨0, _⟩ => rfl)
  rw [h4, h5, classN_val, classN_val]

/-- The broadcast margin at the pair `(a, b)` is the margin of the anchor row `a`. -/
theorem margin_pair (x1 : (⟨S8192, .f32⟩ : BufTy).Contents (Elt Ideal)) (a b : Fin 8192) :
    val_main_v12 (F := Ideal) x1 (ix2 a b) = marginN x1 a.val := by
  rw [val_main_v12_apply, val_main_v11_apply]
  have h : idx_main_v11 (idx_main_v12 (ix2 a b)) = ix1 a :=
    funext fun d => Fin.ext (by match d with | ⟨0, _⟩ => rfl)
  rw [h, marginN_val]

/-- On one pair the two masked stages add up to the pair's term. -/
theorem pair_eq (x0 : (⟨S8192x128, .f32⟩ : BufTy).Contents (Elt Ideal)) (x1 : (⟨S8192, .f32⟩ : BufTy).Contents (Elt Ideal))
    (x2 : (⟨S8192, .i32⟩ : BufTy).Contents (Elt Ideal)) (a b : Fin 8192) :
    val_main_v17 (F := Ideal) x0 x2 (ix2 a b) + val_main_v19 (F := Ideal) x0 x1 x2 (ix2 a b)
      = term (rowsN x0) (marginN x1) (classN x2) a.val b.val := by
  rw [val_main_v17_apply, val_main_v9_apply, val_main_v8_apply, val_main_v7_apply, val_main_cst_apply,
    val_main_v16_apply, val_main_v15_apply, val_main_cst_0_apply, val_main_call0_v1_apply, val_main_call0_v0_apply,
    val_main_cst_1_apply, val_main_v19_apply, val_main_v14_apply, val_main_v10_apply, val_main_v13_apply,
    val_main_call1_v1_apply, val_main_call1_v0_apply, val_main_cst_3_apply, margin_pair, same_pair, sim_pair]
  have hz : (FloatOps.ofBits (F := Ideal) .f32 0x00000000#32 : Ideal .f32) = (0 : EReal) := zero_eq
  unfold term pair
  rw [zero_eq, hz]
  exact (select_split _ _ _ _ _).symm

/-- The reference's last stage is the loss of its three arguments. -/
theorem result_eq (x0 : (⟨S8192x128, .f32⟩ : BufTy).Contents (Elt Ideal)) (x1 : (⟨S8192, .f32⟩ : BufTy).Contents (Elt Ideal))
    (x2 : (⟨S8192, .i32⟩ : BufTy).Contents (Elt Ideal)) (i : S_.Idx) :
    val_main_v22 (F := Ideal) x0 x1 x2 i = loss (rowsN x0) (marginN x1) (classN x2) := by
  rw [val_main_v22_apply, val_main_v21_apply, val_main_v18_apply, val_main_v20_apply]
  rw [sum_idx2 (val_main_v17 (F := Ideal) x0 x2), sum_idx2 (val_main_v19 (F := Ideal) x0 x1 x2)]
  rw [val_main_cst_2_apply, val_main_cst_4_apply, val_main_cst_5_apply, Ideal.addf_def]
  unfold loss
  refine congrArg (fun s => FloatOps.hostDivf (F := Ideal) (φ := .f32) s count) ?_
  unfold rowLoss
  exact sum_split (fun a b => val_main_v17 (F := Ideal) x0 x2 (ix2 a b))
    (fun a b => val_main_v19 (F := Ideal) x0 x1 x2 (ix2 a b))
    (fun a b => term (rowsN x0) (marginN x1) (classN x2) a.val b.val)
    (fun a b => (pair_eq x0 x1 x2 a b).symm)

end Cert.ReferenceIdeal.RefLoss

end
-- ==== Proof.lean ====
/- The five claims of this certificate, assembled.

   The kernel computes, for 8192 unit-norm embeddings with a margin and a class per row, a contrastive loss over all
   pairs of rows: a pair of one class contributes `1 - s` when its similarity `s` is below one, a pair of two classes
   contributes `s` when it exceeds the anchor row's margin, and the total is divided by the number of rows. It walks
   the 8 x 8 grid of 1024 x 1024 tiles of the similarity matrix, keeps a running column of row sums in a scratch
   buffer along each row tile, and leaves each row's sum in an output column that the host then sums. The reference
   builds the whole similarity matrix and takes the two masked sums separately.

   Frames: each printed program runs to the end without a fault and leaves its three arguments as launched. For the two
   kernel programs that is the pipeline's launch with the scratch's contents tracked from grid point to grid point,
   written once for any float instance; the embeddings' array, which the kernel reads through two windows, is held in two
   halves for the run. For the reference it is its run with the result dropped.
   Value: over the extended reals both results are the one function `PairLoss.loss` of the arguments — the kernel's by
   induction along each row tile and the cover of the output column by the row tiles' last points, the reference's
   because on every pair the two masked terms add up to the nested choice. No step needs the inputs finite. -/
import proofs.«173385_j80229989089698_1_alg».proof.Defs
import proofs.«173385_j80229989089698_1_alg».proof.Proof.Gen.Kernel
import proofs.«173385_j80229989089698_1_alg».proof.Proof.Gen.KernelIdeal
import proofs.«173385_j80229989089698_1_alg».proof.Proof.Gen.ReferenceIdeal
import proofs.«173385_j80229989089698_1_alg».proof.Proof.Gen.Pre_finite_inputs
import proofs.«173385_j80229989089698_1_alg».proof.Proof.BitsSide.Launch
import proofs.«173385_j80229989089698_1_alg».proof.Proof.IdealSide.Result
import proofs.«173385_j80229989089698_1_alg».proof.Proof.RefLoss
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the loss of the arguments as their result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c _ => Cert.PairLoss.loss (Cert.PairLoss.rowsN (Cert.KernelIdeal.Hand.embArg m c))
      (Cert.PairLoss.marginN (Cert.KernelIdeal.Hand.marginArg m c)) (Cert.PairLoss.classN (Cert.KernelIdeal.Hand.classArg m c)), ?_, ?_⟩
  · exact (θ_run Cert.KernelIdeal.defs _ _).mono (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, (hagree c).1, (hagree c).2.1, (hagree c).2.2]
    funext i
    exact Cert.ReferenceIdeal.RefLoss.result_eq _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
